-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x32x1024 : Shape := ⟨4, ![1, 32, 32, 1024]⟩
abbrev S1x32x1x8 : Shape := ⟨4, ![1, 32, 1, 8]⟩
abbrev S1x8x1024x1024 : Shape := ⟨4, ![1, 8, 1024, 1024]⟩
abbrev S_ : Shape := ⟨0, ![]⟩

class Facts : Prop where
  bcast_S_S1x32x32x1024 : S_.BroadcastsInDim S1x32x32x1024 (![] : Fin 0 → Fin S1x32x32x1024.rank)
  reducesTo_S1x32x32x1024_S_d0_1_2_3 : S1x32x32x1024.ReducesTo [0, 1, 2, 3] S_
  h_S_ : 0 < S_.numel
  bcast_S_S1x32x1x8 : S_.BroadcastsInDim S1x32x1x8 (![] : Fin 0 → Fin S1x32x1x8.rank)
  reducesTo_S1x32x1x8_S_d0_1_2_3 : S1x32x1x8.ReducesTo [0, 1, 2, 3] S_
  bcast_S_S1x8x1024x1024 : S_.BroadcastsInDim S1x8x1024x1024 (![] : Fin 0 → Fin S1x8x1024x1024.rank)
  reducesTo_S1x8x1024x1024_S_d0_1_2_3 : S1x8x1024x1024.ReducesTo [0, 1, 2, 3] S_

variable [Facts]

def fn {F : FTy → Type} [FloatOps F] (main_arg0 : FVec F S1x32x32x1024 .f32) (main_arg1 : FVec F S1x32x1x8 .f32) (main_arg2 : FVec F S1x8x1024x1024 .f32) : IVec S_ 1 :=
  let main_v0 : FVec F S1x32x32x1024 .f32 := Host.absf main_arg0
  let main_cst : FVec F S_ .f32 := constant S_ .f32 0x7F800000#32
  let main_v1 : FVec F S1x32x32x1024 .f32 := broadcastInDim S1x32x32x1024 ![] bcast_S_S1x32x32x1024 main_cst
  let main_v2 : IVec S1x32x32x1024 1 := cmpf .olt main_v0 main_v1
  let main_c : IVec S_ 1 := constantI S_ 1 1#1
  let main_v3 : IVec S_ 1 := (fun x v => Host.reduce IntOp.andi x v reducesTo_S1x32x32x1024_S_d0_1_2_3 h_S_) main_v2 main_c
  let main_v4 : FVec F S1x32x1x8 .f32 := Host.absf main_arg1
  let main_cst_0 : FVec F S_ .f32 := constant S_ .f32 0x7F800000#32
  let main_v5 : FVec F S1x32x1x8 .f32 := broadcastInDim S1x32x1x8 ![] bcast_S_S1x32x1x8 main_cst_0
  let main_v6 : IVec S1x32x1x8 1 := cmpf .olt main_v4 main_v5
  let main_c_1 : IVec S_ 1 := constantI S_ 1 1#1
  let main_v7 : IVec S_ 1 := (fun x v => Host.reduce IntOp.andi x v reducesTo_S1x32x1x8_S_d0_1_2_3 h_S_) main_v6 main_c_1
  let main_v8 : IVec S_ 1 := andi main_v3 main_v7
  let main_v9 : FVec F S1x8x1024x1024 .f32 := Host.absf main_arg2
  let main_cst_2 : FVec F S_ .f32 := constant S_ .f32 0x7F800000#32
  let main_v10 : FVec F S1x8x1024x1024 .f32 := broadcastInDim S1x8x1024x1024 ![] bcast_S_S1x8x1024x1024 main_cst_2
  let main_v11 : IVec S1x8x1024x1024 1 := cmpf .olt main_v9 main_v10
  let main_c_3 : IVec S_ 1 := constantI S_ 1 1#1
  let main_v12 : IVec S_ 1 := (fun x v => Host.reduce IntOp.andi x v reducesTo_S1x8x1024x1024_S_d0_1_2_3 h_S_) main_v11 main_c_3
  let main_v13 : IVec S_ 1 := andi main_v8 main_v12
  main_v13
-- ==== Kernel.lean ====
abbrev S1x32x32x1024 : Shape := ⟨4, ![1, 32, 32, 1024]⟩
abbrev S1x32x1x8 : Shape := ⟨4, ![1, 32, 1, 8]⟩
abbrev S1x8x1024x1024 : Shape := ⟨4, ![1, 8, 1024, 1024]⟩
abbrev S32x32x1024 : Shape := ⟨3, ![32, 32, 1024]⟩
abbrev S8x1024x1024 : Shape := ⟨3, ![8, 1024, 1024]⟩
abbrev S32x8 : Shape := ⟨2, ![32, 8]⟩
abbrev S8x1024 : Shape := ⟨2, ![8, 1024]⟩
abbrev S8x128x1024 : Shape := ⟨3, ![8, 128, 1024]⟩
abbrev S8x128 : Shape := ⟨2, ![8, 128]⟩
abbrev S32x1024 : Shape := ⟨2, ![32, 1024]⟩
abbrev S1x32x8 : Shape := ⟨3, ![1, 32, 8]⟩

abbrev nBuf : Space → Nat
  | .hbm => 10
  | .vmem => 10
  | .smem => 0
  | _ => 0

abbrev bufTy : (tb : Table) → Fin (tcTables nBuf tb) → BufTy
  | .hbm, ⟨0, _⟩ => ⟨S1x32x32x1024, .f32⟩
  | .hbm, ⟨1, _⟩ => ⟨S1x32x1x8, .f32⟩
  | .hbm, ⟨2, _⟩ => ⟨S1x8x1024x1024, .f32⟩
  | .hbm, ⟨3, _⟩ => ⟨S32x32x1024, .f32⟩
  | .hbm, ⟨4, _⟩ => ⟨S8x1024x1024, .f32⟩
  | .hbm, ⟨5, _⟩ => ⟨S32x8, .f32⟩
  | .hbm, ⟨6, _⟩ => ⟨S8x1024, .f32⟩
  | .hbm, ⟨7, _⟩ => ⟨S32x1024, .f32⟩
  | .hbm, ⟨8, _⟩ => ⟨S32x8, .f32⟩
  | .hbm, ⟨9, _⟩ => ⟨S1x32x8, .f32⟩
  | .local _ .vmem, ⟨0, _⟩ => ⟨S8x128x1024, .f32⟩
  | .local _ .vmem, ⟨1, _⟩ => ⟨S8x128x1024, .f32⟩
  | .local _ .vmem, ⟨2, _⟩ => ⟨S8x128, .f32⟩
  | .local _ .vmem, ⟨3, _⟩ => ⟨S8x128, .f32⟩
  | .local _ .vmem, ⟨4, _⟩ => ⟨S32x32x1024, .f32⟩
  | .local _ .vmem, ⟨5, _⟩ => ⟨S32x1024, .f32⟩
  | .local _ .vmem, ⟨6, _⟩ => ⟨S32x1024, .f32⟩
  | .local _ .vmem, ⟨7, _⟩ => ⟨S8x1024, .f32⟩
  | .local _ .vmem, ⟨8, _⟩ => ⟨S32x8, .f32⟩
  | .local _ .vmem, ⟨9, _⟩ => ⟨S32x8, .f32⟩
  | _, _ => ⟨S1x32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc2_sem0_0 : DmaSem sig := 6
abbrev cc2_sem1_0 : DmaSem sig := 7
abbrev cc2_sem2_0 : DmaSem sig := 8
abbrev cc2_sem3_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  shapeCasts_S1x32x32x1024_S32x32x1024 : S1x32x32x1024.ShapeCasts S32x32x1024
  shapeCasts_S1x8x1024x1024_S8x1024x1024 : S1x8x1024x1024.ShapeCasts S8x1024x1024
  shapeCasts_S1x32x1x8_S32x8 : S1x32x1x8.ShapeCasts S32x8
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x128 : S8x128x1024.Reduces [2] S8x128
  inb_S8x128_S8x128_0_0 : ∀ a, (![0, 0] : Fin 2 → Nat) a + S8x128.size a ≤ S8x128.size a
  h_S8x128 : 0 < S8x128.numel
  inb_S32x32x1024_S32x32x1024_0_0_0 : ∀ a, (![0, 0, 0] : Fin 3 → Nat) a + S32x32x1024.size a ≤ S32x32x1024.size a
  h_S32x32x1024 : 0 < S32x32x1024.numel
  shapeCasts_S32x32x1024_S32x32x1024 : S32x32x1024.ShapeCasts S32x32x1024
  reduces_S32x32x1024_S32x1024 : S32x32x1024.Reduces [1] S32x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S32x8_S32x8_0_0 : ∀ a, (![0, 0] : Fin 2 → Nat) a + S32x8.size a ≤ S32x8.size a
  h_S32x8 : 0 < S32x8.numel
  shapeCasts_S32x8_S32x8 : S32x8.ShapeCasts S32x8
  bcast_S32x8_S1x32x8_1_2 : S32x8.BroadcastsInDim S1x32x8 (![1, 2] : Fin 2 → Fin S1x32x8.rank)
  dot_S32x1024_S8x1024_S32x8_1_1_0_0_n_n_wf : DotDims.WF S32x1024 S8x1024 S32x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x1024x1024.size a
  hwx0_0 : ∀ i : grid0.Coords, EltTy.bits .f32 = 32 ∨ (Rect.block (s := S8x1024x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x1024.size a
  hwx0_1 : ∀ i : grid0.Coords, EltTy.bits .f32 = 32 ∨ (Rect.block (s := S8x1024) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x32x1024.size a ≤ S32x32x1024.size a
  hwx1_0 : ∀ i : grid1.Coords, EltTy.bits .f32 = 32 ∨ (Rect.block (s := S32x32x1024) S32x32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S32x1024.size a
  hwx1_1 : ∀ i : grid1.Coords, EltTy.bits .f32 = 32 ∨ (Rect.block (s := S32x1024) S32x1024.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S32x1024.size a ≤ S32x1024.size a
  hwx2_0 : ∀ i : grid2.Coords, EltTy.bits .f32 = 32 ∨ (Rect.block (s := S32x1024) S32x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x1024.size a ≤ S8x1024.size a
  hwx2_1 : ∀ i : grid2.Coords, EltTy.bits .f32 = 32 ∨ (Rect.block (s := S8x1024) S8x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x8.size a ≤ S32x8.size a
  hwx2_2 : ∀ i : grid2.Coords, EltTy.bits .f32 = 32 ∨ (Rect.block (s := S32x8) S32x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x8.size a ≤ S32x8.size a
  hwx2_3 : ∀ i : grid2.Coords, EltTy.bits .f32 = 32 ∨ (Rect.block (s := S32x8) S32x8.size (cc2_transform_3 i) (hinb2_3 i)).WholeWords (EltTy.packing .f32)

variable [Facts₀]

def dot_S32x1024_S8x1024_S32x8_1_1_0_0_n_n : DotDims S32x1024 S8x1024 S32x8 where
  lhsContracting := [1]
  rhsContracting := [1]
  lhsNonContracting := [0]
  rhsNonContracting := [0]
  lhsBatch := []
  rhsBatch := []
  wf := dot_S32x1024_S8x1024_S32x8_1_1_0_0_n_n_wf

abbrev win0_0 : Pipeline.Window sig grid0 :=
  Pipeline.Window.ofSpec (Memref.whole main_v1) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S32x32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S32x1024.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S32x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S32x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S32x8.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x32x32x1024 : Shape := ⟨4, ![1, 32, 32, 1024]⟩
abbrev S1x32x1x8 : Shape := ⟨4, ![1, 32, 1, 8]⟩
abbrev S1x8x1024x1024 : Shape := ⟨4, ![1, 8, 1024, 1024]⟩
abbrev S8x1024x1024 : Shape := ⟨3, ![8, 1024, 1024]⟩
abbrev S_ : Shape := ⟨0, ![]⟩
abbrev S8x1024 : Shape := ⟨2, ![8, 1024]⟩
abbrev S1x32x1024 : Shape := ⟨3, ![1, 32, 1024]⟩
abbrev S1x32x8 : Shape := ⟨3, ![1, 32, 8]⟩

abbrev nBuf : Space → Nat
  | .hbm => 11
  | .vmem => 0
  | .smem => 0
  | _ => 0

abbrev bufTy : (tb : Table) → Fin (tcTables nBuf tb) → BufTy
  | .hbm, ⟨0, _⟩ => ⟨S1x32x32x1024, .f32⟩
  | .hbm, ⟨1, _⟩ => ⟨S1x32x1x8, .f32⟩
  | .hbm, ⟨2, _⟩ => ⟨S1x8x1024x1024, .f32⟩
  | .hbm, ⟨3, _⟩ => ⟨S8x1024x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S1x32x1024, .f32⟩
  | .hbm, ⟨8, _⟩ => ⟨S1x32x8, .f32⟩
  | .hbm, ⟨9, _⟩ => ⟨S1x32x8, .f32⟩
  | .hbm, ⟨10, _⟩ => ⟨S1x32x8, .f32⟩
  | _, _ => ⟨S1x32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  shapeCasts_S1x8x1024x1024_S8x1024x1024 : S1x8x1024x1024.ShapeCasts S8x1024x1024
  reducesTo_S8x1024x1024_S8x1024_d2 : S8x1024x1024.ReducesTo [2] S8x1024
  h_S_ : 0 < S_.numel
  reducesTo_S1x32x32x1024_S1x32x1024_d2 : S1x32x32x1024.ReducesTo [2] S1x32x1024
  shapeCasts_S1x32x1x8_S1x32x8 : S1x32x1x8.ShapeCasts S1x32x8
  dot_S1x32x1024_S8x1024_S1x32x8_2_1_01_0_n_n_wf : DotDims.WF S1x32x1024 S8x1024 S1x32x8 [2] [1] [0, 1] [0] [] []

variable [Facts₀]

def dot_S1x32x1024_S8x1024_S1x32x8_2_1_01_0_n_n : DotDims S1x32x1024 S8x1024 S1x32x8 where
  lhsContracting := [2]
  rhsContracting := [1]
  lhsNonContracting := [0, 1]
  rhsNonContracting := [0]
  lhsBatch := []
  rhsBatch := []
  wf := dot_S1x32x1024_S8x1024_S1x32x8_2_1_01_0_n_n_wf

class Facts : Prop extends Facts₀ where

variable [Facts]
-- ==== Proof.TokenSumRegion.lean ====
/-
  The region that sums the hidden activations over the token axis: one grid point, the whole [32, 32, 1024] array as
  its input block and the whole [32, 1024] array as its output block. Whatever the arrays hold when the region is
  entered, its output array ends holding, at (b, h), the sum over m of the input at (b, m, h).
-/
import proofs.«137491_j62878321214308_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.TokenSum

open Cert.KernelIdeal Cert.KernelIdeal.Gen
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at (b, h): the sum over the token axis of its loaded block. -/
theorem pay_at (x0 : Vec Ideal S32x32x1024 .f32) (b : Fin 32) (h : Fin 1024) :
    k1_pay1 (F := Ideal) x0 (ix2 b h) = ∑ mm : Fin 32, x0 (ix3 b mm h) := by
  unfold k1_pay1
  refine (Ideal.multiReduction_add_single _ 0x00000000#32 reduces_S32x32x1024_S32x1024 (.inl rfl) rfl (ix2 b h)).trans ?_
  refine Finset.sum_congr rfl fun mm _ => ?_
  rw [shapeCast_self]
  exact congrArg x0 (funext fun a => Fin.ext (by match a with | ⟨0, _⟩ => rfl | ⟨1, _⟩ => rfl | ⟨2, _⟩ => rfl))

variable (V : (c : Dev nD) → (b : Ref sig .tc) → Buf (Elt Ideal) ((c : Thread nD τ).loc b))

/-- The region's input array as it finds it, at its literal type. -/
abbrev hidden3 (c : Dev nD) : Vec Ideal S32x32x1024 .f32 := V c main_v0

/-- What the output array ends holding. -/
def summed (c : Dev nD) : Vec Ideal S32x1024 .f32 := fun j => ∑ mm : Fin 32, hidden3 V c (ix3 (j 0) mm (j 1))

/-- The index maps at the one grid point: every block index is zero. -/
theorem idx_facts : ∀ t : Fin cfg1.N, win1_0.index t (0 : Fin 3) = 0 ∧ win1_0.index t (1 : Fin 3) = 0 ∧ win1_0.index t (2 : Fin 3) = 0
    ∧ win1_1.index t (0 : Fin 2) = 0 ∧ win1_1.index t (1 : Fin 2) = 0 :=
  (by decide +kernel : ∀ t : Fin grid1.N, _)

/-- The input block at the point is the array itself, index by index. -/
theorem block_read (c : Dev nD) (t : Fin cfg1.N) (b : Fin 32) (mm : Fin 32) (h : Fin 1024) :
    iblk1 V c 0 t (ix3 b mm h) = hidden3 V c (ix3 b mm h) := by
  obtain ⟨e0, e1, e2, -, -⟩ := idx_facts t
  show V c main_v0 (((cfg1.win 0).blk t).view.emb (ix3 b mm h)) = V c main_v0 (ix3 b mm h)
  refine congrArg (V c main_v0) ?_
  funext a; apply Fin.ext
  match a with
  | ⟨0, _⟩ => show win1_0.index t (0 : Fin 3) * 32 + 1 * b.val = b.val; omega
  | ⟨1, _⟩ => show win1_0.index t (1 : Fin 3) * 32 + 1 * mm.val = mm.val; omega
  | ⟨2, _⟩ => show win1_0.index t (2 : Fin 3) * 1024 + 1 * h.val = h.val; omega

/-- What the point writes back is its block of `summed`. -/
theorem flushed_eq (c : Dev nD) (t : Fin cfg1.N) :
    (dat1 V c).flushed 1 t = ((cfg1.win 1).blk t).view.read (Elt Ideal) (summed V c) := by
  show (cfg1.win 1).cut (grid1.coords t) ((dat1 V c).after 1 t) = _
  rw [after1_1]
  unfold out1_1
  rw [View.canon_unit_zero zero2]
  simp only [View.ld_unit_zero (S := S32x32x1024) zero3]
  obtain ⟨-, -, -, e3, e4⟩ := idx_facts t
  funext j
  obtain ⟨b, h, rfl⟩ : ∃ (b : Fin 32) (h : Fin 1024), j = ix2 b h := ⟨j 0, j 1, eq_ix2 j⟩
  show k1_pay1 (F := Ideal) (iblk1 V c 0 t) (ix2 b h) = summed V c (((cfg1.win 1).blk t).view.emb (ix2 b h))
  rw [pay_at]
  have hemb : ((cfg1.win 1).blk t).view.emb (ix2 b h) = ix2 b h := by
    funext a; apply Fin.ext
    match a with
    | ⟨0, _⟩ => show win1_1.index t (0 : Fin 2) * 32 + 1 * b.val = b.val; omega
    | ⟨1, _⟩ => show win1_1.index t (1 : Fin 2) * 1024 + 1 * h.val = h.val; omega
  rw [hemb]
  show _ = ∑ mm : Fin 32, hidden3 V c (ix3 b mm h)
  exact Finset.sum_congr rfl fun mm _ => block_read V c t b mm h

/-- An index of the output array is in the point's block iff each coordinate is in the block's range. -/
theorem mem_blk (t : Fin cfg1.N) (i : S32x1024.Idx) :
    i ∈ ((cfg1.win 1).blk t).view.set ↔ ∀ a : Fin 2, win1_1.index t a * S32x1024.size a ≤ (i a).val ∧ (i a).val < win1_1.index t a * S32x1024.size a + S32x1024.size a := by
  show i ∈ ((View.whole main_v4).slice (win1_1.rect t)).set ↔ _
  rw [View.set_slice_whole, Rect.mem_set_unit]
  exact Iff.rfl

/-- The one block covers the array. -/
theorem covered (i : S32x1024.Idx) : ∃ t : Fin cfg1.N, (cfg1.win 1).flush t = true ∧ i ∈ ((cfg1.win 1).blk t).view.set := by
  refine ⟨t1_0, flush1_1 t1_0, ?_⟩
  rw [mem_blk]
  obtain ⟨-, -, -, e3, e4⟩ := idx_facts t1_0
  have h0 : (i 0).val < 32 := (i 0).isLt
  have h1 : (i 1).val < 1024 := (i 1).isLt
  intro a
  match a with
  | ⟨0, _⟩ => show win1_1.index t1_0 (0 : Fin 2) * 32 ≤ (i 0).val ∧ (i 0).val < win1_1.index t1_0 (0 : Fin 2) * 32 + 32; omega
  | ⟨1, _⟩ => show win1_1.index t1_0 (1 : Fin 2) * 1024 ≤ (i 1).val ∧ (i 1).val < win1_1.index t1_0 (1 : Fin 2) * 1024 + 1024; omega

/-- The output array after the region. -/
theorem final (c : Dev nD) : (dat1 V c).arrAt 1 cfg1.N = summed V c :=
  (dat1 V c).arrAt_eq_of_cover 1 (summed V c) (fun t _ => flushed_eq V c t) covered

end Cert.KernelIdeal.TokenSum

end
-- ==== Proof.WeightSumRegion.lean ====
/-
  The region that sums the weights over the output-feature axis. Its grid has eight points; point t reads rows
  128·t … 128·t + 127 of the input-feature axis of the [8, 1024, 1024] array (all experts, all output features) and
  writes the same rows of the [8, 1024] result. Every point's block is a restriction of ONE whole-array function —
  at (e, h) the sum over n of the input at (e, h, n) — and the eight blocks tile the result, so the result array
  ends holding that function.
-/
import proofs.«137491_j62878321214308_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.WeightSum

open Cert.KernelIdeal Cert.KernelIdeal.Gen
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at (e, r) of its block: the sum over the output-feature axis of the loaded block. -/
theorem pay_at (x0 : Vec Ideal S8x128x1024 .f32) (e : Fin 8) (r : Fin 128) :
    k0_pay1 (F := Ideal) x0 (ix2 e r) = ∑ n : Fin 1024, x0 (ix3 e r n) := by
  unfold k0_pay1
  refine (Ideal.multiReduction_add_single _ 0x00000000#32 reduces_S8x128x1024_S8x128 (.inl rfl) rfl (ix2 e r)).trans ?_
  refine Finset.sum_congr rfl fun n _ => ?_
  rw [shapeCast_self]
  exact congrArg x0 (funext fun a => Fin.ext (by match a with | ⟨0, _⟩ => rfl | ⟨1, _⟩ => rfl | ⟨2, _⟩ => rfl))

variable (V : (c : Dev nD) → (b : Ref sig .tc) → Buf (Elt Ideal) ((c : Thread nD τ).loc b))

/-- The region's input array as it finds it, at its literal type. -/
abbrev weight3 (c : Dev nD) : Vec Ideal S8x1024x1024 .f32 := V c main_v1

/-- What the output array ends holding. -/
def summed (c : Dev nD) : Vec Ideal S8x1024 .f32 := fun j => ∑ n : Fin 1024, weight3 V c (ix3 (j 0) (j 1) n)

/-- The index maps over the grid: the input block moves with the output block along the input-feature axis and
    sits at zero on the other two; the output block's row index stays below eight. -/
theorem idx_facts : ∀ t : Fin cfg0.N, win0_0.index t (0 : Fin 3) = 0 ∧ win0_0.index t (1 : Fin 3) = win0_1.index t (1 : Fin 2)
    ∧ win0_0.index t (2 : Fin 3) = 0 ∧ win0_1.index t (0 : Fin 2) = 0 ∧ win0_1.index t (1 : Fin 2) ≤ 7 :=
  (by decide +kernel : ∀ t : Fin grid0.N, _)

/-- Every block of rows is some point's. -/
theorem idx_onto : ∀ q : Fin 8, ∃ t : Fin cfg0.N, win0_1.index t = ![0, q.val] :=
  (by decide +kernel : ∀ q : Fin 8, ∃ t : Fin grid0.N, win0_1.index t = ![0, q.val])

/-- What point `t` writes back is its block of `summed`. -/
theorem flushed_eq (c : Dev nD) (t : Fin cfg0.N) :
    (dat0 V c).flushed 1 t = ((cfg0.win 1).blk t).view.read (Elt Ideal) (summed V c) := by
  show (cfg0.win 1).cut (grid0.coords t) ((dat0 V c).after 1 t) = _
  rw [after0_1]
  unfold out0_1
  rw [View.canon_unit_zero zero2]
  simp only [View.ld_unit_zero (S := S8x128x1024) zero3]
  obtain ⟨e0, e1, e2, e3, -⟩ := idx_facts t
  funext j
  obtain ⟨e, r, rfl⟩ : ∃ (e : Fin 8) (r : Fin 128), j = ix2 e r := ⟨j 0, j 1, eq_ix2 j⟩
  show k0_pay1 (F := Ideal) (iblk0 V c 0 t) (ix2 e r) = summed V c (((cfg0.win 1).blk t).view.emb (ix2 e r))
  rw [pay_at]
  unfold summed
  refine Finset.sum_congr rfl fun n _ => ?_
  show V c main_v1 (((cfg0.win 0).blk t).view.emb (ix3 e r n))
    = V c main_v1 (ix3 ((((cfg0.win 1).blk t).view.emb (ix2 e r)) 0) ((((cfg0.win 1).blk t).view.emb (ix2 e r)) 1) n)
  refine congrArg (V c main_v1) ?_
  funext a; apply Fin.ext
  match a with
  | ⟨0, _⟩ => show win0_0.index t (0 : Fin 3) * 8 + 1 * e.val = win0_1.index t (0 : Fin 2) * 8 + 1 * e.val; omega
  | ⟨1, _⟩ => show win0_0.index t (1 : Fin 3) * 128 + 1 * r.val = win0_1.index t (1 : Fin 2) * 128 + 1 * r.val; omega
  | ⟨2, _⟩ => show win0_0.index t (2 : Fin 3) * 1024 + 1 * n.val = n.val; omega

/-- An index of the output array is in point `t`'s block iff each coordinate is in the block's range. -/
theorem mem_blk (t : Fin cfg0.N) (i : S8x1024.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v3).slice (win0_1.rect t)).set ↔ _
  rw [View.set_slice_whole, Rect.mem_set_unit]
  exact Iff.rfl

/-- Row h of the result lies in the block of point h / 128: the blocks cover the array. -/
theorem covered (i : S8x1024.Idx) : ∃ t : Fin cfg0.N, (cfg0.win 1).flush t = true ∧ i ∈ ((cfg0.win 1).blk t).view.set := by
  have h0 : (i 0).val < 8 := (i 0).isLt
  have h1 : (i 1).val < 1024 := (i 1).isLt
  obtain ⟨t, ht⟩ := idx_onto ⟨(i 1).val / 128, by omega⟩
  have q0 : win0_1.index t (0 : Fin 2) = 0 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The output array after the region. -/
theorem final (c : Dev nD) : (dat0 V c).arrAt 1 cfg0.N = summed V c :=
  (dat0 V c).arrAt_eq_of_cover 1 (summed V c) (fun t _ => flushed_eq V c t) (covered)

end Cert.KernelIdeal.WeightSum

end
-- ==== Proof.CombineRegion.lean ====
/-
  The region that contracts the two partial sums over the shared feature axis and applies the gate: one grid
  point, every window's block its whole array. Whatever the arrays hold when the region is entered, its output
  array ends holding, at (b, e), ( Σ_h tok[b, h] · wt[e, h] ) · gate[b, e]: the matrix product into a zero
  accumulator is that sum over the extended reals, the contraction running over axis 1 of both operands.
-/
import proofs.«137491_j62878321214308_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Combine

open Cert.KernelIdeal Cert.KernelIdeal.Gen
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-! The contraction record's operand indices at the literal axes: axis 0 of either operand is the result's row /
    column, axis 1 the contraction coordinate. -/

theorem lhs_0 (i : S32x8.Idx) (q : dot_S32x1024_S8x1024_S32x8_1_1_0_0_n_n.contr.Idx) : (dot_S32x1024_S8x1024_S32x8_1_1_0_0_n_n.lhsIdx i q 0).val = (i 0).val := by
  unfold DotDims.lhsIdx
  rw [dif_neg (show ¬(0 : Fin S32x1024.rank) ∈ dot_S32x1024_S8x1024_S32x8_1_1_0_0_n_n.lhsBatch by decide), dif_pos (show (0 : Fin S32x1024.rank) ∈ dot_S32x1024_S8x1024_S32x8_1_1_0_0_n_n.lhsNonContracting by decide)]
  rfl
theorem lhs_1 (i : S32x8.Idx) (q : dot_S32x1024_S8x1024_S32x8_1_1_0_0_n_n.contr.Idx) : (dot_S32x1024_S8x1024_S32x8_1_1_0_0_n_n.lhsIdx i q 1).val = (q ⟨0, by decide⟩).val :=
  dot_S32x1024_S8x1024_S32x8_1_1_0_0_n_n.lhsIdx_val_of_single rfl i q
theorem rhs_0 (i : S32x8.Idx) (q : dot_S32x1024_S8x1024_S32x8_1_1_0_0_n_n.contr.Idx) : (dot_S32x1024_S8x1024_S32x8_1_1_0_0_n_n.rhsIdx i q 0).val = (i 1).val := by
  unfold DotDims.rhsIdx
  rw [dif_neg (show ¬(0 : Fin S8x1024.rank) ∈ dot_S32x1024_S8x1024_S32x8_1_1_0_0_n_n.rhsBatch by decide), dif_pos (show (0 : Fin S8x1024.rank) ∈ dot_S32x1024_S8x1024_S32x8_1_1_0_0_n_n.rhsNonContracting by decide)]
  rfl
theorem rhs_1 (i : S32x8.Idx) (q : dot_S32x1024_S8x1024_S32x8_1_1_0_0_n_n.contr.Idx) : (dot_S32x1024_S8x1024_S32x8_1_1_0_0_n_n.rhsIdx i q 1).val = (q ⟨0, by decide⟩).val :=
  dot_S32x1024_S8x1024_S32x8_1_1_0_0_n_n.rhsIdx_val_of_single rfl i q

/-- The matrix product into the zero accumulator, at (b, e): the sum over the shared axis. -/
theorem matmul_at (x0 : FVec Ideal S32x1024 .f32) (x1 : FVec Ideal S8x1024 .f32) (b : Fin 32) (e : Fin 8) :
    matmul dot_S32x1024_S8x1024_S32x8_1_1_0_0_n_n none x0 x1 (constant (F := Ideal) S32x8 .f32 0x00000000#32) (ix2 b e) = ∑ h : Fin 1024, x0 (ix2 b h) * x1 (ix2 e h) := by
  simp only [matmul]
  rw [Ideal.matmul_constant_zero_apply, ← Equiv.sum_comp (contrEquiv1 dot_S32x1024_S8x1024_S32x8_1_1_0_0_n_n 1024 rfl rfl).symm]
  refine Finset.sum_congr rfl fun k _ => ?_
  have hk := contrEquiv1_symm_val dot_S32x1024_S8x1024_S32x8_1_1_0_0_n_n 1024 rfl rfl k
  have el : dot_S32x1024_S8x1024_S32x8_1_1_0_0_n_n.lhsIdx (ix2 b e) ((contrEquiv1 dot_S32x1024_S8x1024_S32x8_1_1_0_0_n_n 1024 rfl rfl).symm k) = ix2 b k := funext fun a => Fin.ext (by
    match a with
    | ⟨0, _⟩ => exact lhs_0 _ _
    | ⟨1, _⟩ => exact (lhs_1 _ _).trans hk)
  have er : dot_S32x1024_S8x1024_S32x8_1_1_0_0_n_n.rhsIdx (ix2 b e) ((contrEquiv1 dot_S32x1024_S8x1024_S32x8_1_1_0_0_n_n 1024 rfl rfl).symm k) = ix2 e k := funext fun a => Fin.ext (by
    match a with
    | ⟨0, _⟩ => exact rhs_0 _ _
    | ⟨1, _⟩ => exact (rhs_1 _ _).trans hk)
  rw [el, er]

/-- The body's stored value at (b, e). -/
theorem pay_at (x0 : Vec Ideal S32x1024 .f32) (x1 : Vec Ideal S8x1024 .f32) (x2 : Vec Ideal S32x8 .f32) (b : Fin 32) (e : Fin 8) :
    k2_pay1 (F := Ideal) x0 x1 x2 (ix2 b e) = (∑ h : Fin 1024, x0 (ix2 b h) * x1 (ix2 e h)) * x2 (ix2 b e) := by
  unfold k2_pay1
  rw [mulf_apply, shapeCast_self, shapeCast_self, shapeCast_self]
  exact congrArg (· * x2 (ix2 b e)) (matmul_at x0 x1 b e)

variable (V : (c : Dev nD) → (b : Ref sig .tc) → Buf (Elt Ideal) ((c : Thread nD τ).loc b))

/-- The region's input arrays as it finds them, at their literal types. -/
abbrev tok (c : Dev nD) : Vec Ideal S32x1024 .f32 := V c main_v4
abbrev wt (c : Dev nD) : Vec Ideal S8x1024 .f32 := V c main_v3
abbrev gate (c : Dev nD) : Vec Ideal S32x8 .f32 := V c main_v2

/-- What the output array ends holding. -/
def combined (c : Dev nD) : Vec Ideal S32x8 .f32 := fun j =>
  (∑ h : Fin 1024, tok V c (ix2 (j 0) h) * wt V c (ix2 (j 1) h)) * gate V c (ix2 (j 0) (j 1))

/-- The index maps at the one grid point: every block index is zero. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Each input block at the point is its array, index by index. -/
theorem read_tok (c : Dev nD) (t : Fin cfg2.N) (b : Fin 32) (h : Fin 1024) : iblk2 V c 0 t (ix2 b h) = tok V c (ix2 b h) := by
  obtain ⟨e0, e1, -⟩ := idx_facts t
  show V c main_v4 (((cfg2.win 0).blk t).view.emb (ix2 b h)) = V c main_v4 (ix2 b h)
  refine congrArg (V c main_v4) ?_
  funext a; apply Fin.ext
  match a with
  | ⟨0, _⟩ => show win2_0.index t (0 : Fin 2) * 32 + 1 * b.val = b.val; omega
  | ⟨1, _⟩ => show win2_0.index t (1 : Fin 2) * 1024 + 1 * h.val = h.val; omega
theorem read_wt (c : Dev nD) (t : Fin cfg2.N) (e : Fin 8) (h : Fin 1024) : iblk2 V c 1 t (ix2 e h) = wt V c (ix2 e h) := by
  obtain ⟨-, -, e2, e3, -⟩ := idx_facts t
  show V c main_v3 (((cfg2.win 1).blk t).view.emb (ix2 e h)) = V c main_v3 (ix2 e h)
  refine congrArg (V c main_v3) ?_
  funext a; apply Fin.ext
  match a with
  | ⟨0, _⟩ => show win2_1.index t (0 : Fin 2) * 8 + 1 * e.val = e.val; omega
  | ⟨1, _⟩ => show win2_1.index t (1 : Fin 2) * 1024 + 1 * h.val = h.val; omega
theorem read_gate (c : Dev nD) (t : Fin cfg2.N) (b : Fin 32) (e : Fin 8) : iblk2 V c 2 t (ix2 b e) = gate V c (ix2 b e) := by
  obtain ⟨-, -, -, -, e4, e5, -⟩ := idx_facts t
  show V c main_v2 (((cfg2.win 2).blk t).view.emb (ix2 b e)) = V c main_v2 (ix2 b e)
  refine congrArg (V c main_v2) ?_
  funext a; apply Fin.ext
  match a with
  | ⟨0, _⟩ => show win2_2.index t (0 : Fin 2) * 32 + 1 * b.val = b.val; omega
  | ⟨1, _⟩ => show win2_2.index t (1 : Fin 2) * 8 + 1 * e.val = e.val; omega

/-- What the point writes back is its block of `combined`. -/
theorem flushed_eq (c : Dev nD) (t : Fin cfg2.N) :
    (dat2 V c).flushed 3 t = ((cfg2.win 3).blk t).view.read (Elt Ideal) (combined V c) := by
  show (cfg2.win 3).cut (grid2.coords t) ((dat2 V c).after 3 t) = _
  rw [after2_3]
  unfold out2_3
  rw [View.canon_unit_zero zero2]
  simp only [View.ld_unit_zero (S := S32x1024) zero2, View.ld_unit_zero (S := S8x1024) zero2, View.ld_unit_zero (S := S32x8) zero2]
  obtain ⟨-, -, -, -, -, -, e6, e7⟩ := idx_facts t
  funext j
  obtain ⟨b, e, rfl⟩ : ∃ (b : Fin 32) (e : Fin 8), j = ix2 b e := ⟨j 0, j 1, eq_ix2 j⟩
  show k2_pay1 (F := Ideal) (iblk2 V c 0 t) (iblk2 V c 1 t) (iblk2 V c 2 t) (ix2 b e) = combined V c (((cfg2.win 3).blk t).view.emb (ix2 b e))
  rw [pay_at]
  have hemb : ((cfg2.win 3).blk t).view.emb (ix2 b e) = ix2 b e := by
    funext a; apply Fin.ext
    match a with
    | ⟨0, _⟩ => show win2_3.index t (0 : Fin 2) * 32 + 1 * b.val = b.val; omega
    | ⟨1, _⟩ => show win2_3.index t (1 : Fin 2) * 8 + 1 * e.val = e.val; omega
  rw [hemb]
  show _ = (∑ h : Fin 1024, tok V c (ix2 b h) * wt V c (ix2 e h)) * gate V c (ix2 b e)
  rw [read_gate V c t b e]
  refine congrArg (· * gate V c (ix2 b e)) (Finset.sum_congr rfl fun h _ => ?_)
  rw [read_tok V c t b h, read_wt V c t e h]

/-- An index of the output array is in the point's block iff each coordinate is in the block's range. -/
theorem mem_blk (t : Fin cfg2.N) (i : S32x8.Idx) :
    i ∈ ((cfg2.win 3).blk t).view.set ↔ ∀ a : Fin 2, win2_3.index t a * S32x8.size a ≤ (i a).val ∧ (i a).val < win2_3.index t a * S32x8.size a + S32x8.size a := by
  show i ∈ ((View.whole main_v5).slice (win2_3.rect t)).set ↔ _
  rw [View.set_slice_whole, Rect.mem_set_unit]
  exact Iff.rfl

/-- The one block covers the array. -/
theorem covered (i : S32x8.Idx) : ∃ t : Fin cfg2.N, (cfg2.win 3).flush t = true ∧ i ∈ ((cfg2.win 3).blk t).view.set := by
  refine ⟨t2_0, flush2_3 t2_0, ?_⟩
  rw [mem_blk]
  obtain ⟨-, -, -, -, -, -, e6, e7⟩ := idx_facts t2_0
  have h0 : (i 0).val < 32 := (i 0).isLt
  have h1 : (i 1).val < 8 := (i 1).isLt
  intro a
  match a with
  | ⟨0, _⟩ => show win2_3.index t2_0 (0 : Fin 2) * 32 ≤ (i 0).val ∧ (i 0).val < win2_3.index t2_0 (0 : Fin 2) * 32 + 32; omega
  | ⟨1, _⟩ => show win2_3.index t2_0 (1 : Fin 2) * 8 ≤ (i 1).val ∧ (i 1).val < win2_3.index t2_0 (1 : Fin 2) * 8 + 8; omega

/-- The output array after the region. -/
theorem final (c : Dev nD) : (dat2 V c).arrAt 3 cfg2.N = combined V c :=
  (dat2 V c).arrAt_eq_of_cover 3 (combined V c) (fun t _ => flushed_eq V c t) covered

end Cert.KernelIdeal.Combine

end
-- ==== Proof.Spec.lean ====
/-
  The mathematics both programs compute, as one function of the three argument arrays.

  hidden : [1, 32, 32, 1024] (a, b, m, h);  gate : [1, 32, 1, 8] (a, b, 1, e);  weight : [1, 8, 1024, 1024] (a, e, h, n).
  The result [1, 32, 8] at (0, b, e) is

      ( Σ_h ( Σ_m hidden[0, b, m, h] ) · ( Σ_n weight[0, e, h, n] ) ) · gate[0, b, 0, e]

  over the extended reals: the token axis m and the output-feature axis n are each summed on their own array
  first (neither index occurs in the other array), the two partial sums are contracted over the shared axis h,
  and the gate multiplies the contraction pointwise. Both programs are written in exactly this factored form, so
  no distributive law is needed to join them: only the names of the indices differ.
-/
import Idealize.ShloMosaic.PureOps.Ideal
import Idealize.ShloMosaic.Lib.ValueIdx

noncomputable section

namespace Cert.GateUp

open Idealize.ShloMosaic Idealize.ShloMosaic.ValueIdx

abbrev SHidden : Shape := ⟨4, ![1, 32, 32, 1024]⟩
abbrev SGate : Shape := ⟨4, ![1, 32, 1, 8]⟩
abbrev SWeight : Shape := ⟨4, ![1, 8, 1024, 1024]⟩
abbrev SOut : Shape := ⟨3, ![1, 32, 8]⟩

/-- The hidden activations of batch row `b` summed over the token axis, at feature `h`. -/
def tokenSum (hidden : FVec Ideal SHidden .f32) (b : Fin 32) (h : Fin 1024) : EReal :=
  ∑ mm : Fin 32, hidden (ix4 (0 : Fin 1) b mm h)

/-- Expert `e`'s weight summed over the output-feature axis, at input feature `h`. -/
def weightSum (weight : FVec Ideal SWeight .f32) (e : Fin 8) (h : Fin 1024) : EReal :=
  ∑ n : Fin 1024, weight (ix4 (0 : Fin 1) e h n)

/-- The gated contraction at batch row `b` and expert `e`. -/
def gateUpAt (hidden : FVec Ideal SHidden .f32) (gate : FVec Ideal SGate .f32) (weight : FVec Ideal SWeight .f32)
    (b : Fin 32) (e : Fin 8) : EReal :=
  (∑ h : Fin 1024, tokenSum hidden b h * weightSum weight e h) * gate (ix4 (0 : Fin 1) b (0 : Fin 1) e)

/-- The whole result array. -/
def gateUp (hidden : FVec Ideal SHidden .f32) (gate : FVec Ideal SGate .f32) (weight : FVec Ideal SWeight .f32) :
    FVec Ideal SOut .f32 :=
  fun i => gateUpAt hidden gate weight (i 1) (i 2)

end Cert.GateUp

end
-- ==== Proof.KernelValue.lean ====
/-
  The idealized kernel's result array as one function of the argument arrays.

  @main is: three reshapes (each drops unit axes: hidden to [32, 32, 1024], weight to [8, 1024, 1024], gate to [32, 8]);
  the weight-sum region; the token-sum region; the combine region; a broadcast of the [32, 8] product to [1, 32, 8].
  Each region writes only its own output array, so an array is read at a later boundary as the last region that
  wrote it left it, and every other array as the first host stretch left it. Reading the chain back:

    result[0, b, e]           = product[b, e]
    product[b, e]             = ( Σ_h tok[b, h] · wt[e, h] ) · gate2[b, e]
    tok[b, h]                 = Σ_m hidden3[b, m, h],      hidden3[b, m, h] = hidden[0, b, m, h]
    wt[e, h]                  = Σ_n weight3[e, h, n],      weight3[e, h, n] = weight[0, e, h, n]
    gate2[b, e]               = gate[0, b, 0, e]

  which is `GateUp.gateUp` of the three arguments.
-/
import proofs.«137491_j62878321214308_1_alg».proof.Proof.Gen.KernelIdeal.Frame
import proofs.«137491_j62878321214308_1_alg».proof.Proof.TokenSumRegion
import proofs.«137491_j62878321214308_1_alg».proof.Proof.WeightSumRegion
import proofs.«137491_j62878321214308_1_alg».proof.Proof.CombineRegion
import proofs.«137491_j62878321214308_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.StableHlo
open Cert.GateUp

variable (m : (ℓ : Loc nD τ sig) → Buf (Elt Ideal) ℓ) (ρ : Dev nD → PrngReg)

/-! ## The first host stretch: the three reshapes -/

theorem W1_v0 (c : Dev nD) : W1 m ρ c (Proc.devRef .tc main_v0)
    = shapeCast S32x32x1024 (m ((c : Thread nD τ).loc main_arg0)) shapeCasts_S1x32x32x1024_S32x32x1024 := by
  show StableHlo.after hostOps0 (W0 m ρ c) (Proc.devRef .tc main_v0) = _
  after_results <;> rfl

theorem W1_v1 (c : Dev nD) : W1 m ρ c (Proc.devRef .tc main_v1)
    = shapeCast S8x1024x1024 (m ((c : Thread nD τ).loc main_arg2)) shapeCasts_S1x8x1024x1024_S8x1024x1024 := by
  show StableHlo.after hostOps0 (W0 m ρ c) (Proc.devRef .tc main_v1) = _
  after_results <;> rfl

theorem W1_v2 (c : Dev nD) : W1 m ρ c (Proc.devRef .tc main_v2)
    = shapeCast S32x8 (m ((c : Thread nD τ).loc main_arg1)) shapeCasts_S1x32x1x8_S32x8 := by
  show StableHlo.after hostOps0 (W0 m ρ c) (Proc.devRef .tc main_v2) = _
  after_results <;> rfl

/-- The reshaped weight, as the weight-sum region finds it, at (e, h, n). -/
theorem weight3_at (c : Dev nD) (e : Fin 8) (h : Fin 1024) (n : Fin 1024) :
    WeightSum.weight3 (V1 m ρ) c (ix3 e h n) = m ((c : Thread nD τ).loc main_arg2) (ix4 (0 : Fin 1) e h n) := by
  show W1 m ρ c (Proc.devRef .tc main_v1) (ix3 e h n) = _
  rw [W1_v1]
  refine shapeCast_apply _ shapeCasts_S1x8x1024x1024_S8x1024x1024 (ix3 e h n) (ix4 (0 : Fin 1) e h n) ?_
  rewrite [Shape.rowMajor_val_four, Shape.rowMajor_val_three]
  show ((0 * 8 + e.val) * 1024 + h.val) * 1024 + n.val = (e.val * 1024 + h.val) * 1024 + n.val
  omega

/-- The reshaped hidden activations, as the token-sum region finds them (the region before it left them alone),
    at (b, m, h). -/
theorem hidden3_at (c : Dev nD) (b : Fin 32) (mm : Fin 32) (h : Fin 1024) :
    TokenSum.hidden3 (V2 m ρ) c (ix3 b mm h) = m ((c : Thread nD τ).loc main_arg0) (ix4 (0 : Fin 1) b mm h) := by
  have h2 : V2 m ρ c main_v0 = W1 m ρ c (Proc.devRef .tc main_v0) := W2_of_ne m ρ c main_v0 (by decide)
  show V2 m ρ c main_v0 (ix3 b mm h) = _
  rw [h2, W1_v0]
  refine shapeCast_apply _ shapeCasts_S1x32x32x1024_S32x32x1024 (ix3 b mm h) (ix4 (0 : Fin 1) b mm h) ?_
  rewrite [Shape.rowMajor_val_four, Shape.rowMajor_val_three]
  show ((0 * 32 + b.val) * 32 + mm.val) * 1024 + h.val = (b.val * 32 + mm.val) * 1024 + h.val
  omega

/-! ## Each array at the boundary where the combine region reads it -/

/-- The reshaped gate, as the combine region finds it (no region before it writes it), at (b, e). -/
theorem gate_at (c : Dev nD) (b : Fin 32) (e : Fin 8) :
    Combine.gate (V3 m ρ) c (ix2 b e) = m ((c : Thread nD τ).loc main_arg1) (ix4 (0 : Fin 1) b (0 : Fin 1) e) := by
  have h1 : V3 m ρ c main_v2 = W1 m ρ c (Proc.devRef .tc main_v2) :=
    calc V3 m ρ c main_v2 = W2 m ρ c (Proc.devRef .tc main_v2) := W3_of_ne m ρ c main_v2 (by decide)
      _ = W1 m ρ c (Proc.devRef .tc main_v2) := W2_of_ne m ρ c main_v2 (by decide)
  show V3 m ρ c main_v2 (ix2 b e) = _
  rw [h1, W1_v2]
  refine shapeCast_apply _ shapeCasts_S1x32x1x8_S32x8 (ix2 b e) (ix4 (0 : Fin 1) b (0 : Fin 1) e) ?_
  rewrite [Shape.rowMajor_val_four, Shape.rowMajor_val_two]
  show ((0 * 32 + b.val) * 1 + 0) * 8 + e.val = b.val * 8 + e.val
  omega

/-- The weight sum, as the combine region finds it: written by the first region, untouched by the second. -/
theorem wt_at (c : Dev nD) (e : Fin 8) (h : Fin 1024) :
    Combine.wt (V3 m ρ) c (ix2 e h) = weightSum (m ((c : Thread nD τ).loc main_arg2)) e h := by
  have h1 : V3 m ρ c main_v3 = WeightSum.summed (V1 m ρ) c :=
    calc V3 m ρ c main_v3 = W2 m ρ c (Proc.devRef .tc main_v3) := W3_of_ne m ρ c main_v3 (by decide)
      _ = (dat0 (V1 m ρ) c).arrAt 1 cfg0.N := W2_arr m ρ c 1
      _ = WeightSum.summed (V1 m ρ) c := WeightSum.final (V1 m ρ) c
  have h1' : Combine.wt (V3 m ρ) c = WeightSum.summed (V1 m ρ) c := h1
  rw [h1']
  unfold WeightSum.summed weightSum
  exact Finset.sum_congr rfl fun n _ => weight3_at m ρ c e h n

/-- The token sum, as the combine region finds it: written by the second region. -/
theorem tok_at (c : Dev nD) (b : Fin 32) (h : Fin 1024) :
    Combine.tok (V3 m ρ) c (ix2 b h) = tokenSum (m ((c : Thread nD τ).loc main_arg0)) b h := by
  have h1 : V3 m ρ c main_v4 = TokenSum.summed (V2 m ρ) c :=
    calc V3 m ρ c main_v4 = (dat1 (V2 m ρ) c).arrAt 1 cfg1.N := W3_arr m ρ c 1
      _ = TokenSum.summed (V2 m ρ) c := TokenSum.final (V2 m ρ) c
  have h1' : Combine.tok (V3 m ρ) c = TokenSum.summed (V2 m ρ) c := h1
  rw [h1']
  unfold TokenSum.summed tokenSum
  exact Finset.sum_congr rfl fun mm _ => hidden3_at m ρ c b mm h

/-- The product the combine region leaves, at (b, e). -/
theorem product_at (c : Dev nD) (b : Fin 32) (e : Fin 8) :
    W4 m ρ c (Proc.devRef .tc main_v5) (ix2 b e)
      = gateUpAt (m ((c : Thread nD τ).loc main_arg0)) (m ((c : Thread nD τ).loc main_arg1)) (m ((c : Thread nD τ).loc main_arg2)) b e := by
  have h1 : W4 m ρ c (Proc.devRef .tc main_v5) = Combine.combined (V3 m ρ) c :=
    calc W4 m ρ c (Proc.devRef .tc main_v5) = (dat2 (V3 m ρ) c).arrAt 3 cfg2.N := W4_arr m ρ c 3
      _ = Combine.combined (V3 m ρ) c := Combine.final (V3 m ρ) c
  refine (congrFun h1 (ix2 b e)).trans ?_
  show (∑ h : Fin 1024, Combine.tok (V3 m ρ) c (ix2 b h) * Combine.wt (V3 m ρ) c (ix2 e h)) * Combine.gate (V3 m ρ) c (ix2 b e) = _
  unfold gateUpAt
  rw [gate_at m ρ c b e]
  refine congrArg (· * _) (Finset.sum_congr rfl fun h _ => ?_)
  rw [tok_at m ρ c b h, wt_at m ρ c e h]

/-! ## The last host stretch: the broadcast to a leading unit axis -/

theorem W5_v6 (c : Dev nD) : W5 m ρ c (Proc.devRef .tc main_v6)
    = broadcastInDim S1x32x8 ![1, 2] bcast_S32x8_S1x32x8_1_2 (W4 m ρ c (Proc.devRef .tc main_v5)) := by
  show StableHlo.after hostOps3 (W4 m ρ c) (Proc.devRef .tc main_v6) = _
  after_results <;> rfl

/-- THE RESULT: the array @main returns is the gated contraction of the two partial sums of its arguments. -/
theorem result_eq (c : Dev nD) :
    W5 m ρ c (Proc.devRef .tc main_v6)
      = gateUp (m ((c : Thread nD τ).loc main_arg0)) (m ((c : Thread nD τ).loc main_arg1)) (m ((c : Thread nD τ).loc main_arg2)) := by
  rw [W5_v6]
  funext i
  obtain ⟨a, b, e, rfl⟩ : ∃ (a : Fin 1) (b : Fin 32) (e : Fin 8), i = ix3 a b e := ⟨i 0, i 1, i 2, eq_ix3 i⟩
  refine (broadcastInDim_apply ![1, 2] bcast_S32x8_S1x32x8_1_2 _ (ix3 a b e) (ix2 b e) ?_).trans ?_
  · intro d
    match d with
    | ⟨0, _⟩ => rfl
    | ⟨1, _⟩ => rfl
  · exact product_at m ρ c b e

end Cert.KernelIdeal.Result

end
-- ==== Proof.RefSide.lean ====
/-
  The reference program computes `GateUp.gateUp`. Its host operations, read one at a time at an index: the weight is
  reshaped (dropping the leading unit axis) and summed over its last axis from a zero initial value; the hidden
  activations are summed over the token axis from a zero initial value; the two sums are contracted over the shared
  feature axis; the gate is reshaped (dropping its unit axis) and multiplied in. A zero initial value adds nothing,
  and a reshape between shapes that differ by unit axes reads the same row-major position, so at result index
  (0, b, e) this is ( Σ_h ( Σ_m hidden[0,b,m,h] ) · ( Σ_n weight[0,e,h,n] ) ) · gate[0,b,0,e].
-/
import proofs.«137491_j62878321214308_1_alg».proof.Proof.Gen.ReferenceIdeal.Run
import proofs.«137491_j62878321214308_1_alg».proof.Proof.Gen.ReferenceIdeal.Read
import proofs.«137491_j62878321214308_1_alg».proof.Proof.Spec

noncomputable section

namespace Cert.ReferenceIdeal.IsGateUp

open Cert.ReferenceIdeal Cert.ReferenceIdeal.Gen Cert.ReferenceIdeal.Read
open Idealize.ShloMosaic Idealize.ShloMosaic.TcCoe Idealize.SL.Sem Idealize.ShloMosaic.ValueIdx
open Cert.GateUp

/-- The token-axis sum stage at (a, b, h). -/
theorem tok_at (x0 : (⟨S1x32x32x1024, .f32⟩ : BufTy).Contents (Elt Ideal)) (a : Fin 1) (b : Fin 32) (h : Fin 1024) :
    val_main_v2 (F := Ideal) x0 (ix3 a b h) = tokenSum x0 b h := by
  rw [val_main_v2_apply, val_main_cst_0_apply]
  show Ideal.ofBits .f32 0x00000000#32 + _ = _
  rw [Ideal.ofBits_zero_f32, zero_add]
  unfold tokenSum
  refine Finset.sum_congr rfl fun mm _ => congrArg x0 ?_
  have ha : a.val = 0 := by have := a.isLt; omega
  funext d; apply Fin.ext
  match d with
  | ⟨0, _⟩ => exact ha
  | ⟨1, _⟩ => rfl
  | ⟨2, _⟩ => rfl
  | ⟨3, _⟩ => rfl

/-- The weight sum stage at (e, h): the reshape reads the weight at (0, e, h, n). -/
theorem wt_at (x2 : (⟨S1x8x1024x1024, .f32⟩ : BufTy).Contents (Elt Ideal)) (e : Fin 8) (h : Fin 1024) :
    val_main_v1 (F := Ideal) x2 (ix2 e h) = weightSum x2 e h := by
  rw [val_main_v1_apply, val_main_cst_apply]
  show Ideal.ofBits .f32 0x00000000#32 + _ = _
  rw [Ideal.ofBits_zero_f32, zero_add]
  unfold weightSum
  refine Finset.sum_congr rfl fun n _ => ?_
  rw [val_main_v0_apply]
  refine congrArg x2 ?_
  have he := e.isLt; have hh := h.isLt; have hn := n.isLt
  funext d; apply Fin.ext
  match d with
  | ⟨0, _⟩ => rfl
  | ⟨1, _⟩ => show ((e.val * 1024 + h.val) * 1024 + n.val) / 1048576 % 8 = e.val; omega
  | ⟨2, _⟩ => show ((e.val * 1024 + h.val) * 1024 + n.val) / 1024 % 1024 = h.val; omega
  | ⟨3, _⟩ => show ((e.val * 1024 + h.val) * 1024 + n.val) % 1024 = n.val; omega

/-- The reshaped gate at (a, b, e) is the gate at (0, b, 0, e). -/
theorem gate_at (x1 : (⟨S1x32x1x8, .f32⟩ : BufTy).Contents (Elt Ideal)) (a : Fin 1) (b : Fin 32) (e : Fin 8) :
    val_main_v4 (F := Ideal) x1 (ix3 a b e) = x1 (ix4 (0 : Fin 1) b (0 : Fin 1) e) := by
  rw [val_main_v4_apply]
  refine congrArg x1 ?_
  have ha : a.val = 0 := by have := a.isLt; omega
  have hb := b.isLt; have he := e.isLt
  funext d; apply Fin.ext
  match d with
  | ⟨0, _⟩ => rfl
  | ⟨1, _⟩ => show ((a.val * 32 + b.val) * 8 + e.val) / 8 % 32 = b.val; omega
  | ⟨2, _⟩ => rfl
  | ⟨3, _⟩ => show ((a.val * 32 + b.val) * 8 + e.val) % 8 = e.val; omega

/-- The reference's result is the gated contraction of the two partial sums. -/
theorem ref_eq (x0 : (⟨S1x32x32x1024, .f32⟩ : BufTy).Contents (Elt Ideal)) (x1 : (⟨S1x32x1x8, .f32⟩ : BufTy).Contents (Elt Ideal))
    (x2 : (⟨S1x8x1024x1024, .f32⟩ : BufTy).Contents (Elt Ideal)) :
    val_main_v5 (F := Ideal) x0 x1 x2 = gateUp x0 x1 x2 := by
  funext i
  obtain ⟨a, b, e, rfl⟩ : ∃ (a : Fin 1) (b : Fin 32) (e : Fin 8), i = ix3 a b e := ⟨i 0, i 1, i 2, eq_ix3 i⟩
  rw [val_main_v5_apply, val_main_v3_apply, gate_at]
  show (∑ k : Fin 1024, val_main_v2 (F := Ideal) x0 (lidx_main_v3 (ix3 a b e) k) * val_main_v1 (F := Ideal) x2 (ridx_main_v3 (ix3 a b e) k))
      * x1 (ix4 (0 : Fin 1) b (0 : Fin 1) e) = gateUpAt x0 x1 x2 b e
  unfold gateUpAt
  refine congrArg (· * x1 (ix4 (0 : Fin 1) b (0 : Fin 1) e)) (Finset.sum_congr rfl fun h _ => ?_)
  have el : lidx_main_v3 (ix3 a b e) h = ix3 a b h := funext fun d => Fin.ext (by
    match d with | ⟨0, _⟩ => rfl | ⟨1, _⟩ => rfl | ⟨2, _⟩ => rfl)
  have er : ridx_main_v3 (ix3 a b e) h = ix2 e h := funext fun d => Fin.ext (by
    match d with | ⟨0, _⟩ => rfl | ⟨1, _⟩ => rfl)
  rw [el, er, tok_at, wt_at]

end Cert.ReferenceIdeal.IsGateUp

end
-- ==== Proof.lean ====
/-
  The certificate of a gate-up contraction written in factored form.

  Both programs compute, at result index (0, b, e),

      ( Σ_h ( Σ_m hidden[0, b, m, h] ) · ( Σ_n weight[0, e, h, n] ) ) · gate[0, b, 0, e]

  over the extended reals. The kernel does it in three regions — the weight summed over its output-feature axis in
  eight row blocks, the hidden activations summed over the token axis, then the matrix product of the two partial
  sums (into a zero accumulator) times the gate — between reshapes that only drop or add unit axes. The reference
  is the same four stages as host operations: two sums from a zero initial value, a contraction over the shared
  axis, a pointwise product. A sum from zero is the sum, a product into a zero accumulator is the contraction, and
  a reshape across unit axes reads the same row-major position, so the two results are one function of the
  arguments, `GateUp.gateUp` (Proof/Spec.lean): no distributive law and hence no finiteness of the inputs is
  used, only the re-indexing of each stage.

  Proof/KernelValue.lean reads the kernel's result through its run (Proof/KernelRun.lean: the run with the result
  array named) region by region (Proof/WeightSumRegion.lean, Proof/TokenSumRegion.lean, Proof/CombineRegion.lean);
  Proof/RefSide.lean reads the reference's. The three frames are the programs' runs with the result dropped, and
  the idealization rewrote nothing, so there is nothing to preserve.
-/
import proofs.«137491_j62878321214308_1_alg».proof.Defs
import proofs.«137491_j62878321214308_1_alg».proof.Proof.Gen.Kernel
import proofs.«137491_j62878321214308_1_alg».proof.Proof.Gen.Kernel.Skeleton
import proofs.«137491_j62878321214308_1_alg».proof.Proof.Gen.Kernel.Launch
import proofs.«137491_j62878321214308_1_alg».proof.Proof.Gen.Kernel.Points
import proofs.«137491_j62878321214308_1_alg».proof.Proof.Gen.Kernel.Frame
import proofs.«137491_j62878321214308_1_alg».proof.Proof.Gen.KernelIdeal
import proofs.«137491_j62878321214308_1_alg».proof.Proof.Gen.KernelIdeal.Skeleton
import proofs.«137491_j62878321214308_1_alg».proof.Proof.Gen.KernelIdeal.Launch
import proofs.«137491_j62878321214308_1_alg».proof.Proof.Gen.KernelIdeal.Points
import proofs.«137491_j62878321214308_1_alg».proof.Proof.Gen.KernelIdeal.Frame
import proofs.«137491_j62878321214308_1_alg».proof.Proof.Gen.ReferenceIdeal
import proofs.«137491_j62878321214308_1_alg».proof.Proof.Gen.ReferenceIdeal.Run
import proofs.«137491_j62878321214308_1_alg».proof.Proof.Gen.ReferenceIdeal.Read
import proofs.«137491_j62878321214308_1_alg».proof.Proof.Gen.Pre_finite_inputs
import proofs.«137491_j62878321214308_1_alg».proof.Proof.KernelRun
import proofs.«137491_j62878321214308_1_alg».proof.Proof.KernelValue
import proofs.«137491_j62878321214308_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at `GateUp.gateUp` of the arguments. -/
theorem algebraic : Cert.algebraic_KernelIdeal_ReferenceIdeal := by
  intro m ρ m' ρ' _ hagree
  refine ⟨fun c => Cert.GateUp.gateUp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Result.result_eq m ρ c), (h c).2⟩)
      (Cert.KernelIdeal.Run.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.ReferenceIdeal.IsGateUp.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
